-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S320000x256 : Shape := ⟨2, ![320000, 256]⟩
abbrev S320000 : Shape := ⟨1, ![320000]⟩
abbrev S256x512 : Shape := ⟨2, ![256, 512]⟩
abbrev S256 : Shape := ⟨1, ![256]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S320000x256 : S_.BroadcastsInDim S320000x256 (![] : Fin 0 → Fin S320000x256.rank)
  reducesTo_S320000x256_S_d0_1 : S320000x256.ReducesTo [0, 1] S_
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S10000x256 .f32) (main_arg1 : FVec F S320000x256 .f32) (main_arg2 : IVec S320000 32) (main_arg3 : IVec S320000 32) (main_arg4 : FVec F S256x512 .f32) (main_arg5 : FVec F S256 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S320000x256 .f32 := Host.absf main_arg1
  let main_cst_0 : FVec F S_ .f32 := constant S_ .f32 0x7F800000#32
  let main_v5 : FVec F S320000x256 .f32 := broadcastInDim S320000x256 ![] bcast_S_S320000x256 main_cst_0
  let main_v6 : IVec S320000x256 1 := cmpf .olt main_v4 main_v5
  let main_c_1 : IVec S_ 1 := constantI S_ 1 1#1
  let main_v7 : IVec S_ 1 := (fun x v => Host.reduce IntOp.andi x v reducesTo_S320000x256_S_d0_1 h_S_) main_v6 main_c_1
  let main_v8 : IVec S_ 1 := andi main_v3 main_v7
  let main_v9 : FVec F S256x512 .f32 := Host.absf main_arg4
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S10000x256 : Shape := ⟨2, ![10000, 256]⟩
abbrev S320000x256 : Shape := ⟨2, ![320000, 256]⟩
abbrev S320000 : Shape := ⟨1, ![320000]⟩
abbrev S256x512 : Shape := ⟨2, ![256, 512]⟩
abbrev S256 : Shape := ⟨1, ![256]⟩
abbrev S_ : Shape := ⟨0, ![]⟩
abbrev S320000x1 : Shape := ⟨2, ![320000, 1]⟩
abbrev S4000x256 : Shape := ⟨2, ![4000, 256]⟩
abbrev S256x256 : Shape := ⟨2, ![256, 256]⟩
abbrev S1x256 : Shape := ⟨2, ![1, 256]⟩
abbrev S1000x256 : Shape := ⟨2, ![1000, 256]⟩

abbrev nBuf : Space → Nat
  | .hbm => 26
  | .vmem => 15
  | .smem => 0
  | _ => 0

abbrev bufTy : (tb : Table) → Fin (tcTables nBuf tb) → BufTy
  | .hbm, ⟨0, _⟩ => ⟨S10000x256, .f32⟩
  | .hbm, ⟨1, _⟩ => ⟨S320000x256, .f32⟩
  | .hbm, ⟨2, _⟩ => ⟨S320000, .i32⟩
  | .hbm, ⟨3, _⟩ => ⟨S320000, .i32⟩
  | .hbm, ⟨4, _⟩ => ⟨S256x512, .f32⟩
  | .hbm, ⟨5, _⟩ => ⟨S256, .f32⟩
  | .hbm, ⟨6, _⟩ => ⟨S_, .i32⟩
  | .hbm, ⟨7, _⟩ => ⟨S320000, .i32⟩
  | .hbm, ⟨8, _⟩ => ⟨S320000, .i1⟩
  | .hbm, ⟨9, _⟩ => ⟨S_, .i32⟩
  | .hbm, ⟨10, _⟩ => ⟨S320000, .i32⟩
  | .hbm, ⟨11, _⟩ => ⟨S320000, .i32⟩
  | .hbm, ⟨12, _⟩ => ⟨S320000, .i32⟩
  | .hbm, ⟨13, _⟩ => ⟨S320000x1, .i32⟩
  | .hbm, ⟨14, _⟩ => ⟨S320000x256, .f32⟩
  | .hbm, ⟨15, _⟩ => ⟨S320000x256, .f32⟩
  | .hbm, ⟨16, _⟩ => ⟨S_, .f32⟩
  | .hbm, ⟨17, _⟩ => ⟨S10000x256, .f32⟩
  | .hbm, ⟨18, _⟩ => ⟨S320000x1, .i32⟩
  | .hbm, ⟨19, _⟩ => ⟨S10000x256, .f32⟩
  | .hbm, ⟨20, _⟩ => ⟨S256x256, .f32⟩
  | .hbm, ⟨21, _⟩ => ⟨S256x256, .f32⟩
  | .hbm, ⟨22, _⟩ => ⟨S256x256, .f32⟩
  | .hbm, ⟨23, _⟩ => ⟨S256x256, .f32⟩
  | .hbm, ⟨24, _⟩ => ⟨S1x256, .f32⟩
  | .hbm, ⟨25, _⟩ => ⟨S10000x256, .f32⟩
  | .local _ .vmem, ⟨0, _⟩ => ⟨S4000x256, .f32⟩
  | .local _ .vmem, ⟨1, _⟩ => ⟨S4000x256, .f32⟩
  | .local _ .vmem, ⟨2, _⟩ => ⟨S4000x256, .f32⟩
  | .local _ .vmem, ⟨3, _⟩ => ⟨S4000x256, .f32⟩
  | .local _ .vmem, ⟨4, _⟩ => ⟨S4000x256, .f32⟩
  | .local _ .vmem, ⟨5, _⟩ => ⟨S4000x256, .f32⟩
  | .local _ .vmem, ⟨6, _⟩ => ⟨S1000x256, .f32⟩
  | .local _ .vmem, ⟨7, _⟩ => ⟨S1000x256, .f32⟩
  | .local _ .vmem, ⟨8, _⟩ => ⟨S1000x256, .f32⟩
  | .local _ .vmem, ⟨9, _⟩ => ⟨S1000x256, .f32⟩
  | .local _ .vmem, ⟨10, _⟩ => ⟨S256x256, .f32⟩
  | .local _ .vmem, ⟨11, _⟩ => ⟨S256x256, .f32⟩
  | .local _ .vmem, ⟨12, _⟩ => ⟨S1x256, .f32⟩
  | .local _ .vmem, ⟨13, _⟩ => ⟨S1000x256, .f32⟩
  | .local _ .vmem, ⟨14, _⟩ => ⟨S1000x256, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S320000 : S_.BroadcastsInDim S320000 (![] : Fin 0 → Fin S320000.rank)
  bcast_S320000_S320000x1_0 : S320000.BroadcastsInDim S320000x1 (![0] : Fin 1 → Fin S320000x1.rank)
  inb_S4000x256_S4000x256_0_0 : ∀ a, (![0, 0] : Fin 2 → Nat) a + S4000x256.size a ≤ S4000x256.size a
  h_S4000x256 : 0 < S4000x256.numel
  shapeCasts_S4000x256_S4000x256 : S4000x256.ShapeCasts S4000x256
  bcast_S_S10000x256 : S_.BroadcastsInDim S10000x256 (![] : Fin 0 → Fin S10000x256.rank)
  slices_S256x512_S256x256_0_0 : S256x512.Slices ![0, 0] S256x256
  slices_S256x512_S256x256_0_256 : S256x512.Slices ![0, 256] S256x256
  transposes_S256x256_S256x256_1_0 : S256x256.Transposes [1, 0] S256x256
  shapeCasts_S256_S1x256 : S256.ShapeCasts S1x256
  inb_S1000x256_S1000x256_0_0 : ∀ a, (![0, 0] : Fin 2 → Nat) a + S1000x256.size a ≤ S1000x256.size a
  h_S1000x256 : 0 < S1000x256.numel
  bitsLt_bf16_f32 : FTy.bits .bf16 < FTy.bits .f32
  shapeCasts_S1000x256_S1000x256 : S1000x256.ShapeCasts S1000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1000x256 : S1x256.Broadcasts S1000x256
  gather_S10000x256_S320000x1_S320000x256_1_0_n_n_0_1_1256_wf : GatherDims.WF S10000x256 S320000x1 S320000x256 [1] [0] [] [0] [] 1 ![1, 256]
  scatter_S10000x256_S320000x1_S320000x256_1_0_0_1_wf : ScatterDims.WF S10000x256 S320000x1 S320000x256 [1] [0] [0] 1
  dot_S1000x256_S256x256_S1000x256_1_0_0_1_n_n_wf : DotDims.WF S1000x256 S256x256 S1000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S320000x256.size a
  hwx0_0 : ∀ i : grid0.Coords, EltTy.bits .f32 = 32 ∨ (Rect.block (s := S320000x256) S4000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x256.size a ≤ S320000x256.size a
  hwx0_1 : ∀ i : grid0.Coords, EltTy.bits .f32 = 32 ∨ (Rect.block (s := S320000x256) S4000x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x256.size a ≤ S320000x256.size a
  hwx0_2 : ∀ i : grid0.Coords, EltTy.bits .f32 = 32 ∨ (Rect.block (s := S320000x256) S4000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x256.size a ≤ S10000x256.size a
  hwx1_0 : ∀ i : grid1.Coords, EltTy.bits .f32 = 32 ∨ (Rect.block (s := S10000x256) S1000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x256.size a ≤ S10000x256.size a
  hwx1_1 : ∀ i : grid1.Coords, EltTy.bits .f32 = 32 ∨ (Rect.block (s := S10000x256) S1000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1000x256.size a ≤ S10000x256.size a
  hwx1_5 : ∀ i : grid1.Coords, EltTy.bits .f32 = 32 ∨ (Rect.block (s := S10000x256) S1000x256.size (cc1_transform_5 i) (hinb1_5 i)).WholeWords (EltTy.packing .f32)

variable [Facts₀]

def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def scatter_S10000x256_S320000x1_S320000x256_1_0_0_1 : ScatterDims S10000x256 S320000x1 S320000x256 where
  updateWindowDims := [1]
  insertedWindowDims := [0]
  scatterDimsToOperandDims := [0]
  indexVectorDim := 1
  wf := scatter_S10000x256_S320000x1_S320000x256_1_0_0_1_wf
def dot_S1000x256_S256x256_S1000x256_1_0_0_1_n_n : DotDims S1000x256 S256x256 S1000x256 where
  lhsContracting := [1]
  rhsContracting := [0]
  lhsNonContracting := [0]
  rhsNonContracting := [1]
  lhsBatch := []
  rhsBatch := []
  wf := dot_S1000x256_S256x256_S1000x256_1_0_0_1_n_n_wf

abbrev win0_0 : Pipeline.Window sig grid0 :=
  Pipeline.Window.ofSpec (Memref.whole main_v6) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S4000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S1000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S1000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v14) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v15) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v16) S1000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S10000x256 : Shape := ⟨2, ![10000, 256]⟩
abbrev S320000x256 : Shape := ⟨2, ![320000, 256]⟩
abbrev S320000 : Shape := ⟨1, ![320000]⟩
abbrev S256x512 : Shape := ⟨2, ![256, 512]⟩
abbrev S256 : Shape := ⟨1, ![256]⟩
abbrev S_ : Shape := ⟨0, ![]⟩
abbrev S320000x1 : Shape := ⟨2, ![320000, 1]⟩
abbrev S10000x512 : Shape := ⟨2, ![10000, 512]⟩
abbrev S512x256 : Shape := ⟨2, ![512, 256]⟩
abbrev S1x256 : Shape := ⟨2, ![1, 256]⟩

abbrev nBuf : Space → Nat
  | .hbm => 29
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S320000x256, .f32⟩
  | .hbm, ⟨2, _⟩ => ⟨S320000, .i32⟩
  | .hbm, ⟨3, _⟩ => ⟨S320000, .i32⟩
  | .hbm, ⟨4, _⟩ => ⟨S256x512, .f32⟩
  | .hbm, ⟨5, _⟩ => ⟨S256, .f32⟩
  | .hbm, ⟨6, _⟩ => ⟨S_, .i32⟩
  | .hbm, ⟨7, _⟩ => ⟨S320000, .i32⟩
  | .hbm, ⟨8, _⟩ => ⟨S320000, .i1⟩
  | .hbm, ⟨9, _⟩ => ⟨S_, .i32⟩
  | .hbm, ⟨10, _⟩ => ⟨S320000, .i32⟩
  | .hbm, ⟨11, _⟩ => ⟨S320000, .i32⟩
  | .hbm, ⟨12, _⟩ => ⟨S320000, .i32⟩
  | .hbm, ⟨13, _⟩ => ⟨S320000x1, .i32⟩
  | .hbm, ⟨14, _⟩ => ⟨S320000x256, .f32⟩
  | .hbm, ⟨15, _⟩ => ⟨S320000x256, .f32⟩
  | .hbm, ⟨16, _⟩ => ⟨S_, .f32⟩
  | .hbm, ⟨17, _⟩ => ⟨S10000x256, .f32⟩
  | .hbm, ⟨18, _⟩ => ⟨S320000x1, .i32⟩
  | .hbm, ⟨19, _⟩ => ⟨S10000x256, .f32⟩
  | .hbm, ⟨20, _⟩ => ⟨S10000x512, .f32⟩
  | .hbm, ⟨21, _⟩ => ⟨S512x256, .f32⟩
  | .hbm, ⟨22, _⟩ => ⟨S10000x256, .f32⟩
  | .hbm, ⟨23, _⟩ => ⟨S1x256, .f32⟩
  | .hbm, ⟨24, _⟩ => ⟨S10000x256, .f32⟩
  | .hbm, ⟨25, _⟩ => ⟨S10000x256, .f32⟩
  | .hbm, ⟨26, _⟩ => ⟨S_, .f32⟩
  | .hbm, ⟨27, _⟩ => ⟨S10000x256, .f32⟩
  | .hbm, ⟨28, _⟩ => ⟨S10000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call0_cst : Ref sig .tc := ⟨.hbm, 26, rfl⟩
abbrev main_call0_v0 : Ref sig .tc := ⟨.hbm, 27, rfl⟩
abbrev main_v17 : Ref sig .tc := ⟨.hbm, 28, rfl⟩

abbrev nD : Nat := 1
abbrev τ : Topo := Topo.v7x

variable {F : FTy → Type} [FloatOps F]

class Facts₀ : Prop where
  bcast_S_S320000 : S_.BroadcastsInDim S320000 (![] : Fin 0 → Fin S320000.rank)
  bcast_S320000_S320000x1_0 : S320000.BroadcastsInDim S320000x1 (![0] : Fin 1 → Fin S320000x1.rank)
  bcast_S_S10000x256 : S_.BroadcastsInDim S10000x256 (![] : Fin 0 → Fin S10000x256.rank)
  concatenates_S10000x256_S10000x256_S10000x512_d1 : Shape.Concatenates [S10000x256, S10000x256] S10000x512 1
  transposes_S256x512_S512x256_1_0 : S256x512.Transposes [1, 0] S512x256
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  gather_S10000x256_S320000x1_S320000x256_1_0_n_n_0_1_1256_wf : GatherDims.WF S10000x256 S320000x1 S320000x256 [1] [0] [] [0] [] 1 ![1, 256]
  scatter_S10000x256_S320000x1_S320000x256_1_0_0_1_wf : ScatterDims.WF S10000x256 S320000x1 S320000x256 [1] [0] [0] 1
  dot_S10000x512_S512x256_S10000x256_1_0_0_1_n_n_wf : DotDims.WF S10000x512 S512x256 S10000x256 [1] [0] [0] [1] [] []

variable [Facts₀]

def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def scatter_S10000x256_S320000x1_S320000x256_1_0_0_1 : ScatterDims S10000x256 S320000x1 S320000x256 where
  updateWindowDims := [1]
  insertedWindowDims := [0]
  scatterDimsToOperandDims := [0]
  indexVectorDim := 1
  wf := scatter_S10000x256_S320000x1_S320000x256_1_0_0_1_wf
def dot_S10000x512_S512x256_S10000x256_1_0_0_1_n_n : DotDims S10000x512 S512x256 S10000x256 where
  lhsContracting := [1]
  rhsContracting := [0]
  lhsNonContracting := [0]
  rhsNonContracting := [1]
  lhsBatch := []
  rhsBatch := []
  wf := dot_S10000x512_S512x256_S10000x256_1_0_0_1_n_n_wf

class Facts : Prop extends Facts₀ where

variable [Facts]
-- ==== Proof.NodeUpdate.lean ====
/-
  The node update of one message-passing layer, as a function of its operands at one output entry.

  Each node `p` carries a feature row `x[p, ·]` of 256 numbers and the sum `h[p, ·]` of the messages that
  arrived at it. The layer's output at `(p, q)` is `max (⟨x[p,·] ‖ h[p,·], W[q,·]⟩ + b[q]) 0`, the inner product
  of the JOINED row of 512 numbers with row `q` of the weights `W : [256, 512]`, plus the bias, cut at zero.
  The joined form takes that inner product as one sum over 512 terms. The split form takes it as two sums of
  256 terms, one of `x[p,·]` against the first 256 columns of row `q` of `W` (given transposed as
  `u[k, q] = W[q, k]`), one of `h[p,·]` against the last 256 (`v[k, q] = W[q, 256 + k]`), the bias given as a
  one-row array. The two forms are equal on the extended reals: a sum over `Fin (256 + 256)` is the sum over the
  first 256 indices plus the sum over the last 256, which needs only that addition is commutative and
  associative, so no entry need be finite.
-/
import Idealize.ShloMosaic.PureOps.Ideal
import Idealize.ShloMosaic.PureOps.Ideal.Laws
import Idealize.ShloMosaic.Lib.ValueIdx

noncomputable section

open scoped BigOperators

namespace Cert.NodeUpdate

open Idealize.ShloMosaic Idealize.ShloMosaic.ValueIdx

/-- The split form at row `p`, column `q`, over arrays of `M` rows: the two inner products of 256 terms, the
    bias row's entry, the cut at zero. -/
def splitAt {M : Nat} (x h : (⟨2, ![M, 256]⟩ : Shape).Idx → EReal) (u v : (⟨2, ![256, 256]⟩ : Shape).Idx → EReal)
    (b : (⟨2, ![1, 256]⟩ : Shape).Idx → EReal) (p : Fin M) (q : Fin 256) : EReal :=
  max (((∑ k : Fin 256, x (ix2 p k) * u (ix2 k q)) + ∑ k : Fin 256, h (ix2 p k) * v (ix2 k q))
    + b (ix2 (0 : Fin 1) q)) 0

/-- The split form as a whole array. -/
def split {M : Nat} (x h : (⟨2, ![M, 256]⟩ : Shape).Idx → EReal) (u v : (⟨2, ![256, 256]⟩ : Shape).Idx → EReal)
    (b : (⟨2, ![1, 256]⟩ : Shape).Idx → EReal) : (⟨2, ![M, 256]⟩ : Shape).Idx → EReal :=
  fun i => splitAt x h u v b (i 0) (i 1)

theorem split_ix2 {M : Nat} (x h : (⟨2, ![M, 256]⟩ : Shape).Idx → EReal) (u v : (⟨2, ![256, 256]⟩ : Shape).Idx → EReal)
    (b : (⟨2, ![1, 256]⟩ : Shape).Idx → EReal) (p : Fin M) (q : Fin 256) :
    split x h u v b (ix2 p q) = splitAt x h u v b p q := rfl

/-- The split form depends on `x` and `h` only through row `p`: a block of rows cut out of a taller array gives, at
    its local row, what the array gives at the row the block's row came from. -/
theorem splitAt_rows {M M' : Nat} (x h : (⟨2, ![M, 256]⟩ : Shape).Idx → EReal)
    (x' h' : (⟨2, ![M', 256]⟩ : Shape).Idx → EReal) (u v : (⟨2, ![256, 256]⟩ : Shape).Idx → EReal)
    (b : (⟨2, ![1, 256]⟩ : Shape).Idx → EReal) (p : Fin M) (p' : Fin M') (q : Fin 256)
    (hx : ∀ k : Fin 256, x (ix2 p k) = x' (ix2 p' k)) (hh : ∀ k : Fin 256, h (ix2 p k) = h' (ix2 p' k)) :
    splitAt x h u v b p q = splitAt x' h' u v b p' q := by
  unfold splitAt
  simp only [hx, hh]

/-- The joined row of node `p` at position `k` of 512: the node's own features first, the summed messages after. -/
def joinedRow {M : Nat} (x h : (⟨2, ![M, 256]⟩ : Shape).Idx → EReal) (p : Fin M) (k : Fin 512) : EReal :=
  if hk : k.val < 256 then x (ix2 p ⟨k.val, hk⟩) else h (ix2 p ⟨k.val - 256, by omega⟩)

/-- The joined form at row `p`, column `q`: one inner product of 512 terms against row `q` of the weights. -/
def joinedAt {M : Nat} (x h : (⟨2, ![M, 256]⟩ : Shape).Idx → EReal) (W : (⟨2, ![256, 512]⟩ : Shape).Idx → EReal)
    (b : (⟨1, ![256]⟩ : Shape).Idx → EReal) (p : Fin M) (q : Fin 256) : EReal :=
  max ((∑ k : Fin 512, joinedRow x h p k * W (ix2 q k)) + b (ix1 q)) 0

/-- THE LAW: the joined form is the split form of the two transposed halves of the weights and the bias as a row.
    The sum over `Fin (256 + 256)` splits at 256; below it the joined row is `x`'s and the weight the first half's,
    from it on the joined row is `h`'s and the weight the second half's. -/
theorem joinedAt_eq_splitAt {M : Nat} (x h : (⟨2, ![M, 256]⟩ : Shape).Idx → EReal)
    (W : (⟨2, ![256, 512]⟩ : Shape).Idx → EReal) (b : (⟨1, ![256]⟩ : Shape).Idx → EReal)
    (u v : (⟨2, ![256, 256]⟩ : Shape).Idx → EReal) (b' : (⟨2, ![1, 256]⟩ : Shape).Idx → EReal)
    (hu : ∀ (k q : Fin 256), u (ix2 k q) = W (ix2 q ⟨k.val, by omega⟩))
    (hv : ∀ (k q : Fin 256), v (ix2 k q) = W (ix2 q ⟨256 + k.val, by omega⟩))
    (hb : ∀ q : Fin 256, b' (ix2 (0 : Fin 1) q) = b (ix1 q)) (p : Fin M) (q : Fin 256) :
    joinedAt x h W b p q = splitAt x h u v b' p q := by
  unfold joinedAt splitAt
  rw [hb q]
  congr 2
  refine (Fin.sum_univ_add (a := 256) (b := 256) fun k : Fin (256 + 256) => joinedRow x h p k * W (ix2 q k)).trans ?_
  congr 1
  · refine Finset.sum_congr rfl fun k _ => ?_
    rw [hu k q]
    have e : joinedRow x h p (Fin.castAdd 256 k) = x (ix2 p k) := by
      unfold joinedRow
      rw [dif_pos (show (Fin.castAdd 256 k).val < 256 from k.isLt)]
      rfl
    rw [e]
    rfl
  · refine Finset.sum_congr rfl fun k _ => ?_
    rw [hv k q]
    have e : joinedRow x h p (Fin.natAdd 256 k) = h (ix2 p k) := by
      unfold joinedRow
      rw [dif_neg (show ¬ (Fin.natAdd 256 k).val < 256 by simp [Fin.natAdd])]
      congr 2
      apply Fin.ext
      simp [Fin.natAdd]
    rw [e]
    rfl

end Cert.NodeUpdate

end
-- ==== Proof.LibDot2.lean ====
/-
  A rank-2 matrix product read at an index, at the ideal instance (floats are the extended reals).

  The product of an `[M, K]` array by a `[K, N]` array is written either as the accelerator's
  multiply-accumulate into an accumulator that is zero everywhere, or as the host's general dot
  product; at the ideal instance both are, at `(p, q)`, the sum over the contraction index of the
  products of the operands' entries, with no rounding and no order of summation left in it. The
  contraction index set of a product with ONE contracted axis is a rank-1 index set; re-indexed by
  its coordinate the sum runs over `Fin K`:
      (l · r)[p, q] = ∑ k : Fin K, l[p, k] * r[k, q].
  The second family is the product with the left operand read transposed, `[K, M]` by `[K, N]`,
  contracting axis 0 of both:
      (lᵀ · r)[p, q] = ∑ k : Fin K, l[k, p] * r[k, q].
  For any dimension numbers the two spellings of one product (accumulating into zero, and the
  host's) are one and the same array.
-/
import Idealize.ShloMosaic.PureOps.Ideal
import Idealize.ShloMosaic.PureOps.Ideal.Laws
import Idealize.ShloMosaic.Lib.ValueIdx

noncomputable section

open scoped BigOperators

namespace Idealize.ShloMosaic.Dot2

open Idealize.ShloMosaic Idealize.ShloMosaic.ValueIdx

/-! ## `[M, K] × [K, N] → [M, N]` -/

/-- [M,K] x [K,N] -> [M,N], contracting lhs axis 1 with rhs axis 0: the dimension numbers of the
    plain matrix product, no batch axis; the result's axis 0 is the left operand's axis 0 and its
    axis 1 the right operand's axis 1. -/
abbrev mmDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

section MM
variable {M K N : Nat}
  (wf : DotDims.WF ⟨2, ![M, K]⟩ ⟨2, ![K, N]⟩ ⟨2, ![M, N]⟩ [1] [0] [0] [1] [] [])

/-- The left operand's axis 0 is its free axis: its coordinate is the result's row, whatever the
    contraction index. -/
private theorem mm_lhs0 (j : (⟨2, ![M, N]⟩ : Shape).Idx) (k : (mmDims M K N wf).contr.Idx) :
    ((mmDims M K N wf).lhsIdx j k 0).val = (j 0).val := by
  unfold DotDims.lhsIdx
  rw [dif_neg (show (0 : Fin 2) ∉ ([] : List (Fin 2)) by decide),
    dif_pos (show (0 : Fin 2) ∈ [(0 : Fin 2)] by decide)]
  rfl

/-- The left operand's axis 1 is the contracted one: at the contraction index with coordinate `c`
    its coordinate is `c`. -/
private theorem mm_lhs1 (j : (⟨2, ![M, N]⟩ : Shape).Idx) (c : Fin K) :
    ((mmDims M K N wf).lhsIdx j ((contrEquiv1 (mmDims M K N wf) K rfl rfl).symm c) 1).val = c.val := by
  rw [(mmDims M K N wf).lhsIdx_val_of_single rfl]
  exact contrEquiv1_symm_val (mmDims M K N wf) K rfl rfl c

/-- The right operand's axis 0 is the contracted one: at the contraction index with coordinate `c`
    its coordinate is `c`. -/
private theorem mm_rhs0 (j : (⟨2, ![M, N]⟩ : Shape).Idx) (c : Fin K) :
    ((mmDims M K N wf).rhsIdx j ((contrEquiv1 (mmDims M K N wf) K rfl rfl).symm c) 0).val = c.val := by
  rw [(mmDims M K N wf).rhsIdx_val_of_single rfl]
  exact contrEquiv1_symm_val (mmDims M K N wf) K rfl rfl c

/-- The right operand's axis 1 is its free axis: its coordinate is the result's column, whatever
    the contraction index. -/
private theorem mm_rhs1 (j : (⟨2, ![M, N]⟩ : Shape).Idx) (k : (mmDims M K N wf).contr.Idx) :
    ((mmDims M K N wf).rhsIdx j k 1).val = (j 1).val := by
  unfold DotDims.rhsIdx
  rw [dif_neg (show (1 : Fin 2) ∉ ([] : List (Fin 2)) by decide),
    dif_pos (show (1 : Fin 2) ∈ [(1 : Fin 2)] by decide)]
  rfl

/-- The contraction's sum at `(p, q)`, over the contraction index set and through the operand
    index maps, is the sum over the contracted coordinate `k : Fin K` of `l[p, k] * r[k, q]`. -/
theorem mm_sum (l : (⟨2, ![M, K]⟩ : Shape).Idx → EReal) (r : (⟨2, ![K, N]⟩ : Shape).Idx → EReal)
    (p : Fin M) (q : Fin N) :
    ∑ k : (mmDims M K N wf).contr.Idx,
        l ((mmDims M K N wf).lhsIdx (ix2 p q) k) * r ((mmDims M K N wf).rhsIdx (ix2 p q) k)
      = ∑ k : Fin K, l (ix2 p k) * r (ix2 k q) := by
  rw [← Equiv.sum_comp (contrEquiv1 (mmDims M K N wf) K rfl rfl).symm]
  refine Finset.sum_congr rfl fun c _ => ?_
  have hl : (mmDims M K N wf).lhsIdx (ix2 p q) ((contrEquiv1 (mmDims M K N wf) K rfl rfl).symm c)
      = ix2 p c := by
    funext a; apply Fin.ext
    match a with
    | ⟨0, _⟩ => exact mm_lhs0 wf (ix2 p q) _
    | ⟨1, _⟩ => exact mm_lhs1 wf (ix2 p q) c
  have hr : (mmDims M K N wf).rhsIdx (ix2 p q) ((contrEquiv1 (mmDims M K N wf) K rfl rfl).symm c)
      = ix2 c q := by
    funext a; apply Fin.ext
    match a with
    | ⟨0, _⟩ => exact mm_rhs0 wf (ix2 p q) c
    | ⟨1, _⟩ => exact mm_rhs1 wf (ix2 p q) _
  rw [hl, hr]

end MM

/-- The accelerator's product of `[M, K]` by `[K, N]` accumulated into the all-zero array, at
    `(p, q)`: `∑ k, l[p, k] * r[k, q]` in the extended reals. -/
theorem matmul_zero_mm_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (mmDims M K N wf) prec l r (constant ⟨2, ![M, N]⟩ .f32 0x00000000#32) (ix2 p q)
      = ∑ k : Fin K, l (ix2 p k) * r (ix2 k q) := by
  rw [Ideal.matmul_constant_zero_apply]
  exact mm_sum wf l r p q

/-- The host's general dot product of `[M, K]` by `[K, N]`, at `(p, q)`, whatever its schedule:
    `∑ k, l[p, k] * r[k, q]` in the extended reals. -/
theorem dotGeneral_mm_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule)
    (l : FVec Ideal ⟨2, ![M, K]⟩ φ₁) (r : FVec Ideal ⟨2, ![K, N]⟩ φ₂) (p : Fin M) (q : Fin N) :
    FloatOps.dotGeneral (mmDims M K N wf) prec sched l r (ix2 p q)
      = ∑ k : Fin K, l (ix2 p k) * r (ix2 k q) := by
  rw [Ideal.dotGeneral_apply]
  exact mm_sum wf l r p q

/-- The same for the host's product as a one-device program states it (the single-device
    schedule): at `(p, q)` it is `∑ k, l[p, k] * r[k, q]`. -/
theorem host_dotGeneral_mm_apply {M K N : Nat} {φ₁ φ₂ : FTy}
    (wf : DotDims.WF ⟨2, ![M, K]⟩ ⟨2, ![K, N]⟩ ⟨2, ![M, N]⟩ [1] [0] [0] [1] [] [])
    (prec : Option ContractPrecision)
    (l : FVec Ideal ⟨2, ![M, K]⟩ φ₁) (r : FVec Ideal ⟨2, ![K, N]⟩ φ₂) (p : Fin M) (q : Fin N) :
    Host.dotGeneral (mmDims M K N wf) prec l r (ix2 p q)
      = ∑ k : Fin K, l (ix2 p k) * r (ix2 k q) :=
  dotGeneral_mm_apply wf prec .single l r p q

/-! ## The two spellings of one product -/

/-- the two spellings of one product are one array: for any dimension numbers, the accelerator's
    product accumulated into the all-zero array is the host's product (which has no accumulator),
    whatever the host's schedule; both are the contraction's sum at every index. -/
theorem matmul_zero_eq_dotGeneral {sl sr so : Shape} {φ₁ φ₂ : FTy} (d : DotDims sl sr so)
    (prec : Option ContractPrecision) (sched : HostSchedule) (l : FVec Ideal sl φ₁) (r : FVec Ideal sr φ₂) :
    FloatOps.matmul d prec l r (constant so .f32 0x00000000#32) = FloatOps.dotGeneral d prec sched l r := by
  funext j
  rw [Ideal.matmul_constant_zero_apply, Ideal.dotGeneral_apply]

/-- The same against the host's product as a one-device program states it (the single-device
    schedule). -/
theorem matmul_zero_eq_host_dotGeneral {sl sr so : Shape} {φ₁ φ₂ : FTy} (d : DotDims sl sr so)
    (prec : Option ContractPrecision) (l : FVec Ideal sl φ₁) (r : FVec Ideal sr φ₂) :
    FloatOps.matmul d prec l r (constant so .f32 0x00000000#32) = Host.dotGeneral d prec l r :=
  matmul_zero_eq_dotGeneral d prec .single l r

/-! ## `[K, M] × [K, N] → [M, N]`, the left operand read transposed -/

/-- [K,M] x [K,N] -> [M,N], contracting axis 0 of both (the left operand read transposed): the
    result's axis 0 is the left operand's axis 1 and its axis 1 the right operand's axis 1. -/
abbrev tmDims (K M N : Nat)
    (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

section TM
variable {K M N : Nat}
  (wf : DotDims.WF ⟨2, ![K, M]⟩ ⟨2, ![K, N]⟩ ⟨2, ![M, N]⟩ [0] [0] [1] [1] [] [])

/-- The left operand's axis 0 is the contracted one: at the contraction index with coordinate `c`
    its coordinate is `c`. -/
private theorem tm_lhs0 (j : (⟨2, ![M, N]⟩ : Shape).Idx) (c : Fin K) :
    ((tmDims K M N wf).lhsIdx j ((contrEquiv1 (tmDims K M N wf) K rfl rfl).symm c) 0).val = c.val := by
  rw [(tmDims K M N wf).lhsIdx_val_of_single rfl]
  exact contrEquiv1_symm_val (tmDims K M N wf) K rfl rfl c

/-- The left operand's axis 1 is its free axis: its coordinate is the result's row, whatever the
    contraction index. -/
private theorem tm_lhs1 (j : (⟨2, ![M, N]⟩ : Shape).Idx) (k : (tmDims K M N wf).contr.Idx) :
    ((tmDims K M N wf).lhsIdx j k 1).val = (j 0).val := by
  unfold DotDims.lhsIdx
  rw [dif_neg (show (1 : Fin 2) ∉ ([] : List (Fin 2)) by decide),
    dif_pos (show (1 : Fin 2) ∈ [(1 : Fin 2)] by decide)]
  rfl

/-- The right operand's axis 0 is the contracted one: at the contraction index with coordinate `c`
    its coordinate is `c`. -/
private theorem tm_rhs0 (j : (⟨2, ![M, N]⟩ : Shape).Idx) (c : Fin K) :
    ((tmDims K M N wf).rhsIdx j ((contrEquiv1 (tmDims K M N wf) K rfl rfl).symm c) 0).val = c.val := by
  rw [(tmDims K M N wf).rhsIdx_val_of_single rfl]
  exact contrEquiv1_symm_val (tmDims K M N wf) K rfl rfl c

/-- The right operand's axis 1 is its free axis: its coordinate is the result's column, whatever
    the contraction index. -/
private theorem tm_rhs1 (j : (⟨2, ![M, N]⟩ : Shape).Idx) (k : (tmDims K M N wf).contr.Idx) :
    ((tmDims K M N wf).rhsIdx j k 1).val = (j 1).val := by
  unfold DotDims.rhsIdx
  rw [dif_neg (show (1 : Fin 2) ∉ ([] : List (Fin 2)) by decide),
    dif_pos (show (1 : Fin 2) ∈ [(1 : Fin 2)] by decide)]
  rfl

/-- The transposed-left contraction's sum at `(p, q)`, over the contraction index set and through
    the operand index maps, is the sum over the contracted coordinate `k : Fin K` of
    `l[k, p] * r[k, q]`. -/
theorem tm_sum (l : (⟨2, ![K, M]⟩ : Shape).Idx → EReal) (r : (⟨2, ![K, N]⟩ : Shape).Idx → EReal)
    (p : Fin M) (q : Fin N) :
    ∑ k : (tmDims K M N wf).contr.Idx,
        l ((tmDims K M N wf).lhsIdx (ix2 p q) k) * r ((tmDims K M N wf).rhsIdx (ix2 p q) k)
      = ∑ k : Fin K, l (ix2 k p) * r (ix2 k q) := by
  rw [← Equiv.sum_comp (contrEquiv1 (tmDims K M N wf) K rfl rfl).symm]
  refine Finset.sum_congr rfl fun c _ => ?_
  have hl : (tmDims K M N wf).lhsIdx (ix2 p q) ((contrEquiv1 (tmDims K M N wf) K rfl rfl).symm c)
      = ix2 c p := by
    funext a; apply Fin.ext
    match a with
    | ⟨0, _⟩ => exact tm_lhs0 wf (ix2 p q) c
    | ⟨1, _⟩ => exact tm_lhs1 wf (ix2 p q) _
  have hr : (tmDims K M N wf).rhsIdx (ix2 p q) ((contrEquiv1 (tmDims K M N wf) K rfl rfl).symm c)
      = ix2 c q := by
    funext a; apply Fin.ext
    match a with
    | ⟨0, _⟩ => exact tm_rhs0 wf (ix2 p q) c
    | ⟨1, _⟩ => exact tm_rhs1 wf (ix2 p q) _
  rw [hl, hr]

end TM

/-- The accelerator's product of `[K, M]` (read transposed) by `[K, N]` accumulated into the
    all-zero array, at `(p, q)`: `∑ k, l[k, p] * r[k, q]` in the extended reals. -/
theorem matmul_zero_tm_apply {K M N : Nat} {φ₁ φ₂ : FTy}
    (wf : DotDims.WF ⟨2, ![K, M]⟩ ⟨2, ![K, N]⟩ ⟨2, ![M, N]⟩ [0] [0] [1] [1] [] [])
    (prec : Option ContractPrecision) (l : FVec Ideal ⟨2, ![K, M]⟩ φ₁) (r : FVec Ideal ⟨2, ![K, N]⟩ φ₂)
    (p : Fin M) (q : Fin N) :
    FloatOps.matmul (tmDims K M N wf) prec l r (constant ⟨2, ![M, N]⟩ .f32 0x00000000#32) (ix2 p q)
      = ∑ k : Fin K, l (ix2 k p) * r (ix2 k q) := by
  rw [Ideal.matmul_constant_zero_apply]
  exact tm_sum wf l r p q

end Idealize.ShloMosaic.Dot2

end
-- ==== Proof.Update.lean ====
/-
  Region 1: the node update. The region's grid has 10 points; point `t` fetches rows `1000 t … 1000 t + 999` of the
  node features and of the summed messages, and (once, at the first point) the two transposed halves of the
  weights and the bias row; it stores `max (x·u + h·v + b) 0` of the two row blocks and writes the result back as
  the same rows of the output array. At the ideal instance the narrowing of the operands to bf16 changes nothing
  and each matrix product into a zero accumulator is the plain sum over the contracted axis, so the stored value
  at `(p, q)` is the split form of the node update; it depends on the row blocks only through row `p`, and the
  blocks tile the 10000 rows, so after the region the output array is the split form of the whole arrays.
-/
import proofs.«113526_j17403207483852_1_alg».proof.Proof.Gen.KernelIdeal.Frame
import proofs.«113526_j17403207483852_1_alg».proof.Proof.NodeUpdate
import proofs.«113526_j17403207483852_1_alg».proof.Proof.LibDot2
import Idealize.ShloMosaic.Lib.Pipeline.Value
import Idealize.ShloMosaic.Lib.ValueLayout

set_option maxRecDepth 16384

noncomputable section

namespace Cert.KernelIdeal.Update

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- A block product into the zero accumulator, at `(p, q)`: the sum over the 256 contracted positions. -/
theorem product_at {φ₁ φ₂ : FTy} (l : FVec Ideal S1000x256 φ₁) (r : FVec Ideal S256x256 φ₂) (p : Fin 1000) (q : Fin 256) :
    FloatOps.matmul dot_S1000x256_S256x256_S1000x256_1_0_0_1_n_n none l r (constant S1000x256 .f32 0x00000000#32) (ix2 p q)
      = ∑ k : Fin 256, l (ix2 p k) * r (ix2 k q) :=
  Dot2.matmul_zero_mm_apply Facts₀.dot_S1000x256_S256x256_S1000x256_1_0_0_1_n_n_wf none l r p q

/-- The body's stored value at `(p, q)` is the split form of the node update of its five loaded blocks. -/
theorem stored_at (x0 x1 : Vec Ideal S1000x256 .f32) (x2 x3 : Vec Ideal S256x256 .f32) (x4 : Vec Ideal S1x256 .f32)
    (p : Fin 1000) (q : Fin 256) :
    k1_pay1 x0 x1 x2 x3 x4 (ix2 p q) = NodeUpdate.splitAt x0 x1 x2 x3 x4 p q := by
  unfold k1_pay1 NodeUpdate.splitAt
  simp only [shapeCast_self]
  rw [maximumf_apply, addf_apply, addf_apply]
  simp only [matmul]
  rw [product_at, product_at, broadcastTo_1b_ab_apply, broadcast_apply]
  show max _ (Ideal.ofBits .f32 0x00000000#32) = _
  rw [Ideal.ofBits_zero_f32]
  rfl

/-! ## The blocks and the arrays, at their literal types -/

/-- The node features, the summed messages, the two transposed weight halves and the bias row as region 1 finds
    them. -/
abbrev xarr (c : Dev nD) : Vec Ideal S10000x256 .f32 := V c main_arg0
abbrev harr (c : Dev nD) : Vec Ideal S10000x256 .f32 := V c main_v10
abbrev uarr (c : Dev nD) : Vec Ideal S256x256 .f32 := V c main_v13
abbrev varr (c : Dev nD) : Vec Ideal S256x256 .f32 := V c main_v14
abbrev barr (c : Dev nD) : Vec Ideal S1x256 .f32 := V c main_v15
/-- Their blocks at grid point `t`. -/
abbrev xblk (c : Dev nD) (t : Fin cfg1.N) : Vec Ideal S1000x256 .f32 := iblk1 V c 0 t
abbrev hblk (c : Dev nD) (t : Fin cfg1.N) : Vec Ideal S1000x256 .f32 := iblk1 V c 1 t
abbrev ublk (c : Dev nD) (t : Fin cfg1.N) : Vec Ideal S256x256 .f32 := iblk1 V c 2 t
abbrev vblk (c : Dev nD) (t : Fin cfg1.N) : Vec Ideal S256x256 .f32 := iblk1 V c 3 t
abbrev bblk (c : Dev nD) (t : Fin cfg1.N) : Vec Ideal S1x256 .f32 := iblk1 V c 4 t

/-- At point `t` the row windows (node features, summed messages, output) sit on block row `t`; the weight halves
    and the bias row are one block each. -/
theorem block_index : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem point_lt (t : Fin cfg1.N) : t.val < 10 := lt_of_lt_of_eq t.isLt N_1

/-- Row `p` of block `t` of the node features is row `1000 t + p` of the array. -/
theorem xblk_at (c : Dev nD) (t : Fin cfg1.N) (p : Fin 1000) (k : Fin 256) :
    xblk V c t (ix2 p k) = xarr V c (ix2 ⟨t.val * 1000 + p.val, by have := point_lt t; omega⟩ k) := by
  obtain ⟨e0, e1, -⟩ := block_index t
  show V c main_arg0 (((cfg1.win 0).blk t).view.emb (ix2 p k)) = V c main_arg0 _
  refine congrArg (V c main_arg0) (funext fun a => Fin.ext ?_)
  match a with
  | ⟨0, _⟩ => show win1_0.index t (0 : Fin 2) * 1000 + 1 * p.val = t.val * 1000 + p.val; omega
  | ⟨1, _⟩ => show win1_0.index t (1 : Fin 2) * 256 + 1 * k.val = k.val; omega

/-- Row `p` of block `t` of the summed messages is row `1000 t + p` of the array. -/
theorem hblk_at (c : Dev nD) (t : Fin cfg1.N) (p : Fin 1000) (k : Fin 256) :
    hblk V c t (ix2 p k) = harr V c (ix2 ⟨t.val * 1000 + p.val, by have := point_lt t; omega⟩ k) := by
  obtain ⟨-, -, e0, e1, -⟩ := block_index t
  show V c main_v10 (((cfg1.win 1).blk t).view.emb (ix2 p k)) = V c main_v10 _
  refine congrArg (V c main_v10) (funext fun a => Fin.ext ?_)
  match a with
  | ⟨0, _⟩ => show win1_1.index t (0 : Fin 2) * 1000 + 1 * p.val = t.val * 1000 + p.val; omega
  | ⟨1, _⟩ => show win1_1.index t (1 : Fin 2) * 256 + 1 * k.val = k.val; omega

/-- The one block of each weight half and of the bias row is the whole array. -/
theorem ublk_eq (c : Dev nD) (t : Fin cfg1.N) : ublk V c t = uarr V c := by
  obtain ⟨-, -, -, -, e0, e1, -⟩ := block_index t
  funext j
  show V c main_v13 (((cfg1.win 2).blk t).view.emb j) = V c main_v13 j
  refine congrArg (V c main_v13) (funext fun a => Fin.ext ?_)
  match a with
  | ⟨0, _⟩ => show win1_2.index t (0 : Fin 2) * 256 + 1 * (j 0).val = (j 0).val; omega
  | ⟨1, _⟩ => show win1_2.index t (1 : Fin 2) * 256 + 1 * (j 1).val = (j 1).val; omega
theorem vblk_eq (c : Dev nD) (t : Fin cfg1.N) : vblk V c t = varr V c := by
  obtain ⟨-, -, -, -, -, -, e0, e1, -⟩ := block_index t
  funext j
  show V c main_v14 (((cfg1.win 3).blk t).view.emb j) = V c main_v14 j
  refine congrArg (V c main_v14) (funext fun a => Fin.ext ?_)
  match a with
  | ⟨0, _⟩ => show win1_3.index t (0 : Fin 2) * 256 + 1 * (j 0).val = (j 0).val; omega
  | ⟨1, _⟩ => show win1_3.index t (1 : Fin 2) * 256 + 1 * (j 1).val = (j 1).val; omega
theorem bblk_eq (c : Dev nD) (t : Fin cfg1.N) : bblk V c t = barr V c := by
  obtain ⟨-, -, -, -, -, -, -, -, e0, e1, -⟩ := block_index t
  funext j
  show V c main_v15 (((cfg1.win 4).blk t).view.emb j) = V c main_v15 j
  refine congrArg (V c main_v15) (funext fun a => Fin.ext ?_)
  match a with
  | ⟨0, _⟩ => show win1_4.index t (0 : Fin 2) * 1 + 1 * (j 0).val = (j 0).val; omega
  | ⟨1, _⟩ => show win1_4.index t (1 : Fin 2) * 256 + 1 * (j 1).val = (j 1).val; omega

/-- What point `t` writes back is block `t` of the split form of the whole arrays. -/
theorem written_back (c : Dev nD) (t : Fin cfg1.N) :
    (dat1 V c).flushed 5 t = ((cfg1.win 5).blk t).view.read (Elt Ideal)
      (NodeUpdate.split (xarr V c) (harr V c) (uarr V c) (varr V c) (barr V c)) := by
  show (cfg1.win 5).cut (grid1.coords t) ((dat1 V c).after 5 t) = _
  rw [after1_5]
  unfold out1_5
  rw [View.canon_unit_zero origin]
  simp only [View.ld_unit_zero (S := S1000x256) origin, View.ld_unit_zero (S := S256x256) origin, View.ld_unit_zero (S := S1x256) origin]
  obtain ⟨-, -, -, -, -, -, -, -, -, -, e0, e1⟩ := block_index t
  funext j
  obtain ⟨p, q, rfl⟩ : ∃ (p : Fin 1000) (q : Fin 256), j = ix2 p q := ⟨j 0, j 1, eq_ix2 j⟩
  show k1_pay1 (xblk V c t) (hblk V c t) (ublk V c t) (vblk V c t) (bblk V c t) (ix2 p q)
    = NodeUpdate.split (xarr V c) (harr V c) (uarr V c) (varr V c) (barr V c) (((cfg1.win 5).blk t).view.emb (ix2 p q))
  have hemb : ((cfg1.win 5).blk t).view.emb (ix2 p q)
      = (ix2 ⟨t.val * 1000 + p.val, by have := point_lt t; omega⟩ q : S10000x256.Idx) := by
    funext a; apply Fin.ext
    match a with
    | ⟨0, _⟩ => show win1_5.index t (0 : Fin 2) * 1000 + 1 * p.val = t.val * 1000 + p.val; omega
    | ⟨1, _⟩ => show win1_5.index t (1 : Fin 2) * 256 + 1 * q.val = q.val; omega
  rw [hemb, NodeUpdate.split_ix2, stored_at, ublk_eq, vblk_eq, bblk_eq]
  exact NodeUpdate.splitAt_rows _ _ _ _ _ _ _ _ _ _ (fun k => xblk_at V c t p k) (fun k => hblk_at V c t p k)

/-- An index of the output array is in point `t`'s block iff each coordinate is in the block's range on its axis. -/
theorem mem_block (t : Fin cfg1.N) (i : S10000x256.Idx) :
    i ∈ ((cfg1.win 5).blk t).view.set ↔ ∀ a : Fin 2, win1_5.index t a * S1000x256.size a ≤ (i a).val ∧ (i a).val < win1_5.index t a * S1000x256.size a + S1000x256.size a := by
  show i ∈ ((View.whole main_v16).slice (win1_5.rect t)).set ↔ _
  rw [View.set_slice_whole, Rect.mem_set_unit]
  exact Iff.rfl

/-- Every row of the output array is in the block of the point `row / 1000`. -/
theorem covered (i : S10000x256.Idx) :
    ∃ t : Fin cfg1.N, (cfg1.win 5).flush t = true ∧ i ∈ ((cfg1.win 5).blk t).view.set := by
  have hi0 : (i 0).val < 10000 := (i 0).isLt
  have hi1 : (i 1).val < 256 := (i 1).isLt
  let t : Fin cfg1.N := ⟨(i 0).val / 1000, by rw [show cfg1.N = 10 from N_1]; omega⟩
  obtain ⟨-, -, -, -, -, -, -, -, -, -, e0, e1⟩ := block_index t
  have ht : t.val = (i 0).val / 1000 := rfl
  refine ⟨t, flush1_5 t, ?_⟩
  rw [mem_block]
  intro a
  match a with
  | ⟨0, _⟩ => show win1_5.index t (0 : Fin 2) * 1000 ≤ (i 0).val ∧ (i 0).val < win1_5.index t (0 : Fin 2) * 1000 + 1000; omega
  | ⟨1, _⟩ => show win1_5.index t (1 : Fin 2) * 256 ≤ (i 1).val ∧ (i 1).val < win1_5.index t (1 : Fin 2) * 256 + 256; omega

/-- THE OUTPUT ARRAY after region 1: the split form of the node update of the arrays as the region found them. -/
theorem output (c : Dev nD) :
    (dat1 V c).arrAt 5 cfg1.N = NodeUpdate.split (xarr V c) (harr V c) (uarr V c) (varr V c) (barr V c) :=
  (dat1 V c).arrAt_eq_of_cover 5 (NodeUpdate.split (xarr V c) (harr V c) (uarr V c) (varr V c) (barr V c))
    (fun t _ => written_back V c t) covered

end Cert.KernelIdeal.Update

end
-- ==== Proof.Messages.lean ====
/-
  Region 0: the edge messages. The region's grid has 80 points; point `t` fetches rows `4000 t … 4000 t + 3999` of
  the gathered node features and of the edge features, multiplies the two blocks entry by entry and writes the
  product back as the same rows of the message array. The blocks tile the 320000 rows, so after the region the
  message array is the entrywise product of the two input arrays as the region found them.
-/
import proofs.«113526_j17403207483852_1_alg».proof.Proof.Gen.KernelIdeal.Frame
import Idealize.ShloMosaic.Lib.Pipeline.Value

set_option maxRecDepth 16384

noncomputable section

namespace Cert.KernelIdeal.Messages

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (V : (c : Dev nD) → (b : Ref sig .tc) → Buf (Elt F) ((c : Thread nD τ).loc b))

theorem origin : (![0, 0] : Fin 2 → Nat) = fun _ => 0 := funext fun a => by fin_cases a <;> rfl

/-- The entrywise product of two arrays of the message array's shape. -/
abbrev prod (a0 a1 : S320000x256.Idx → Elt F .f32) : S320000x256.Idx → Elt F .f32 := fun i => FloatOps.mulf (a0 i) (a1 i)

/-- The body's stored value is the entrywise product of its two loaded blocks. -/
theorem stored_eq (x0 x1 : Vec F S4000x256 .f32) : k0_pay1 x0 x1 = mulf x0 x1 := by
  unfold k0_pay1
  rw [shapeCast_self]

/-- All three windows sit on block row `t`, block column 0, at point `t`. -/
theorem block_index : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the entrywise product of the two input arrays. -/
theorem written_back (c : Dev nD) (t : Fin cfg0.N) :
    (dat0 V c).flushed 2 t = ((cfg0.win 2).blk t).view.read (Elt F) (prod (V c main_v6) (V c main_arg1)) := by
  show (cfg0.win 2).cut (grid0.coords t) ((dat0 V c).after 2 t) = _
  rw [after0_2]
  unfold out0_2
  rw [View.canon_unit_zero origin]
  simp only [View.ld_unit_zero (S := S4000x256) origin]
  rw [stored_eq]
  obtain ⟨e0, e1, e2, e3, e4, e5⟩ := block_index t
  funext j
  show FloatOps.mulf (V c main_v6 (((cfg0.win 0).blk t).view.emb j)) (V c main_arg1 (((cfg0.win 1).blk t).view.emb j)) = FloatOps.mulf (V c main_v6 (((cfg0.win 2).blk t).view.emb j)) (V c main_arg1 (((cfg0.win 2).blk t).view.emb j))
  have h0 : ((cfg0.win 0).blk t).view.emb j = ((cfg0.win 2).blk t).view.emb j := by
    funext a; apply Fin.ext
    match a with
    | ⟨0, _⟩ => show win0_0.index t (0 : Fin 2) * 4000 + 1 * (j 0).val = win0_2.index t (0 : Fin 2) * 4000 + 1 * (j 0).val; omega
    | ⟨1, _⟩ => show win0_0.index t (1 : Fin 2) * 256 + 1 * (j 1).val = win0_2.index t (1 : Fin 2) * 256 + 1 * (j 1).val; omega
  have h1 : ((cfg0.win 1).blk t).view.emb j = ((cfg0.win 2).blk t).view.emb j := by
    funext a; apply Fin.ext
    match a with
    | ⟨0, _⟩ => show win0_1.index t (0 : Fin 2) * 4000 + 1 * (j 0).val = win0_2.index t (0 : Fin 2) * 4000 + 1 * (j 0).val; omega
    | ⟨1, _⟩ => show win0_1.index t (1 : Fin 2) * 256 + 1 * (j 1).val = win0_2.index t (1 : Fin 2) * 256 + 1 * (j 1).val; omega
  rw [h0, h1]

/-- An index of the message array is in point `t`'s block iff each coordinate is in the block's range on its axis. -/
theorem mem_block (t : Fin cfg0.N) (i : S320000x256.Idx) :
    i ∈ ((cfg0.win 2).blk t).view.set ↔ ∀ a : Fin 2, win0_2.index t a * S4000x256.size a ≤ (i a).val ∧ (i a).val < win0_2.index t a * S4000x256.size a + S4000x256.size a := by
  show i ∈ ((View.whole main_v7).slice (win0_2.rect t)).set ↔ _
  rw [View.set_slice_whole, Rect.mem_set_unit]
  exact Iff.rfl

/-- Every row of the message array is in the block of the point `row / 4000`. -/
theorem covered (i : S320000x256.Idx) :
    ∃ t : Fin cfg0.N, (cfg0.win 2).flush t = true ∧ i ∈ ((cfg0.win 2).blk t).view.set := by
  have hi0 : (i 0).val < 320000 := (i 0).isLt
  have hi1 : (i 1).val < 256 := (i 1).isLt
  let t : Fin cfg0.N := ⟨(i 0).val / 4000, by rw [show cfg0.N = 80 from N_0]; omega⟩
  obtain ⟨e0, e1, e2, e3, e4, e5⟩ := block_index t
  have ht : t.val = (i 0).val / 4000 := rfl
  refine ⟨t, flush0_2 t, ?_⟩
  rw [mem_block]
  intro a
  match a with
  | ⟨0, _⟩ => show win0_2.index t (0 : Fin 2) * 4000 ≤ (i 0).val ∧ (i 0).val < win0_2.index t (0 : Fin 2) * 4000 + 4000; omega
  | ⟨1, _⟩ => show win0_2.index t (1 : Fin 2) * 256 ≤ (i 1).val ∧ (i 1).val < win0_2.index t (1 : Fin 2) * 256 + 256; omega

/-- THE MESSAGE ARRAY after region 0: the entrywise product of the gathered node features and the edge features. -/
theorem messages (c : Dev nD) : (dat0 V c).arrAt 2 cfg0.N = prod (V c main_v6) (V c main_arg1) :=
  (dat0 V c).arrAt_eq_of_cover 2 (prod (V c main_v6) (V c main_arg1)) (fun t _ => written_back V c t) covered

end Cert.KernelIdeal.Messages

end
-- ==== Proof.Stretches.lean ====
/-
  What the host operations around the two regions leave in the buffers the regions read.

  Before region 0 the host normalises the source indices (a negative index counts from the end) and gathers the
  source nodes' feature rows; the edge features are an argument. Between the regions it scatter-adds the message
  array by destination into a zero array (the summed messages), cuts the weights into their first and last 256
  columns and transposes each half, and reshapes the bias to one row. No host operation and no region writes an
  argument, so wherever an argument is read it holds its launch contents.
-/
import proofs.«113526_j17403207483852_1_alg».proof.Proof.Gen.KernelIdeal.Frame
import proofs.«113526_j17403207483852_1_alg».proof.Proof.Messages
import Idealize.ShloMosaic.Lib.StableHlo.Run
import Idealize.ShloMosaic.Lib.Pipeline.Value
import Idealize.ShloMosaic.Lib.ValueLayout

set_option maxRecDepth 16384

noncomputable section

namespace Cert.KernelIdeal.Stretches

open Cert.KernelIdeal Cert.KernelIdeal.Gen
open Idealize.ShloMosaic Idealize.ShloMosaic.TcCoe Idealize.SL.Sem Idealize.ShloMosaic.StableHlo Idealize.ShloMosaic.ValueIdx

variable {F : FTy → Type} [FloatOps F]
variable (m : (ℓ : Loc nD τ sig) → Buf (Elt F) ℓ) (ρ : Dev nD → PrngReg)

/-- The source index of every edge, a negative one counted from the end, as a column. -/
abbrev sources (c : Dev nD) : IVec S320000x1 32 :=
  broadcastInDim S320000x1 ![0] bcast_S320000_S320000x1_0
    (select (cmpi .slt (m ((c.tc : Thread nD τ).loc main_arg2)) (broadcastInDim S320000 ![] bcast_S_S320000 (constantI S_ 32 0#32)))
      (addi (m ((c.tc : Thread nD τ).loc main_arg2)) (broadcastInDim S320000 ![] bcast_S_S320000 (constantI S_ 32 10000#32)))
      (m ((c.tc : Thread nD τ).loc main_arg2)))

/-- Region 0's first input: the source nodes' feature rows. -/
theorem gathered (c : Dev nD) :
    V1 m ρ c main_v6 = Host.gather gather_S10000x256_S320000x1_S320000x256_1_0_n_n_0_1_1256 (m ((c.tc : Thread nD τ).loc main_arg0)) (sources m c) := by
  show StableHlo.after hostOps0 (W0 m ρ c) (Proc.devRef .tc main_v6) = _
  after_results

/-- Region 0's second input: the edge features as launched. -/
theorem edge_feats (c : Dev nD) : V1 m ρ c main_arg1 = m ((c.tc : Thread nD τ).loc main_arg1) := by
  show StableHlo.after hostOps0 (W0 m ρ c) (Proc.devRef .tc main_arg1) = _
  after_results

/-! ## At region 1's entry -/

/-- An argument that region 0 does not touch, at region 0's exit, holds its launch contents. -/
theorem node_feats_mid (c : Dev nD) : W2 m ρ c (Proc.devRef .tc main_arg0) = m ((c.tc : Thread nD τ).loc main_arg0) := by
  rw [W2_of_ne m ρ c main_arg0 (by decide)]
  show StableHlo.after hostOps0 (W0 m ρ c) (Proc.devRef .tc main_arg0) = _
  after_results
theorem dst_mid (c : Dev nD) : W2 m ρ c (Proc.devRef .tc main_arg3) = m ((c.tc : Thread nD τ).loc main_arg3) := by
  rw [W2_of_ne m ρ c main_arg3 (by decide)]
  show StableHlo.after hostOps0 (W0 m ρ c) (Proc.devRef .tc main_arg3) = _
  after_results
theorem weights_mid (c : Dev nD) : W2 m ρ c (Proc.devRef .tc main_arg4) = m ((c.tc : Thread nD τ).loc main_arg4) := by
  rw [W2_of_ne m ρ c main_arg4 (by decide)]
  show StableHlo.after hostOps0 (W0 m ρ c) (Proc.devRef .tc main_arg4) = _
  after_results
theorem bias_mid (c : Dev nD) : W2 m ρ c (Proc.devRef .tc main_arg5) = m ((c.tc : Thread nD τ).loc main_arg5) := by
  rw [W2_of_ne m ρ c main_arg5 (by decide)]
  show StableHlo.after hostOps0 (W0 m ρ c) (Proc.devRef .tc main_arg5) = _
  after_results

/-- The message array at region 0's exit: the gathered rows times the edge features, entry by entry. -/
theorem messages_mid (c : Dev nD) :
    W2 m ρ c (Proc.devRef .tc main_v7)
      = mulf (Host.gather gather_S10000x256_S320000x1_S320000x256_1_0_n_n_0_1_1256 (m ((c.tc : Thread nD τ).loc main_arg0)) (sources m c))
          (m ((c.tc : Thread nD τ).loc main_arg1)) := by
  refine ((W2_arr m ρ c 2).trans (Messages.messages (V1 m ρ) c)).trans ?_
  rw [gathered, edge_feats]
  rfl

/-- Region 1's first input: the node features as launched. -/
theorem node_feats (c : Dev nD) : V3 m ρ c main_arg0 = m ((c.tc : Thread nD τ).loc main_arg0) := by
  show StableHlo.after hostOps1 (W2 m ρ c) (Proc.devRef .tc main_arg0) = _
  after_results
  exact node_feats_mid m ρ c

/-- The summed messages: the message array scatter-added by destination into the zero array. -/
abbrev summed (c : Dev nD) : FVec F S10000x256 .f32 :=
  Host.scatterAdd scatter_S10000x256_S320000x1_S320000x256_1_0_0_1
    (broadcastInDim S10000x256 ![] bcast_S_S10000x256 (constant S_ .f32 0x00000000#32))
    (broadcastInDim S320000x1 ![0] bcast_S320000_S320000x1_0 (m ((c.tc : Thread nD τ).loc main_arg3)))
    (mulf (Host.gather gather_S10000x256_S320000x1_S320000x256_1_0_n_n_0_1_1256 (m ((c.tc : Thread nD τ).loc main_arg0)) (sources m c))
      (m ((c.tc : Thread nD τ).loc main_arg1)))

/-- Region 1's second input is the summed messages. -/
theorem summed_messages (c : Dev nD) : V3 m ρ c main_v10 = summed m c := by
  show StableHlo.after hostOps1 (W2 m ρ c) (Proc.devRef .tc main_v10) = _
  after_results
  rw [dst_mid, messages_mid]

/-- Region 1's third and fourth inputs: the first and the last 256 columns of the weights, each transposed. -/
theorem first_half (c : Dev nD) :
    V3 m ρ c main_v13 = transpose S256x256 [1, 0] (extractStridedSlice S256x256 ![0, 0] (m ((c.tc : Thread nD τ).loc main_arg4)) slices_S256x512_S256x256_0_0) transposes_S256x256_S256x256_1_0 := by
  show StableHlo.after hostOps1 (W2 m ρ c) (Proc.devRef .tc main_v13) = _
  after_results
  rw [weights_mid]
theorem second_half (c : Dev nD) :
    V3 m ρ c main_v14 = transpose S256x256 [1, 0] (extractStridedSlice S256x256 ![0, 256] (m ((c.tc : Thread nD τ).loc main_arg4)) slices_S256x512_S256x256_0_256) transposes_S256x256_S256x256_1_0 := by
  show StableHlo.after hostOps1 (W2 m ρ c) (Proc.devRef .tc main_v14) = _
  after_results
  rw [weights_mid]
/-- Region 1's fifth input: the bias as one row. -/
theorem bias_row (c : Dev nD) :
    V3 m ρ c main_v15 = shapeCast S1x256 (m ((c.tc : Thread nD τ).loc main_arg5)) shapeCasts_S256_S1x256 := by
  show StableHlo.after hostOps1 (W2 m ρ c) (Proc.devRef .tc main_v15) = _
  after_results
  rw [bias_mid]
  rfl

/-! ## Their entries -/

/-- Entry `(k, q)` of the first transposed half is entry `(q, k)` of the weights. -/
theorem first_half_at (c : Dev nD) (k q : Fin 256) :
    V3 m ρ c main_v13 (ix2 k q) = m ((c.tc : Thread nD τ).loc main_arg4) (ix2 q ⟨k.val, by omega⟩) := by
  rw [first_half]
  refine (transpose_apply [1, 0] _ transposes_S256x256_S256x256_1_0 (ix2 k q) (ix2 q k) (fun b => match b with
    | ⟨0, _⟩ => rfl
    | ⟨1, _⟩ => rfl)).trans ?_
  exact slice2_axis1_apply 0 _ slices_S256x512_S256x256_0_0 q k ⟨k.val, by omega⟩ (Nat.zero_add _).symm

/-- Entry `(k, q)` of the second transposed half is entry `(q, 256 + k)` of the weights. -/
theorem second_half_at (c : Dev nD) (k q : Fin 256) :
    V3 m ρ c main_v14 (ix2 k q) = m ((c.tc : Thread nD τ).loc main_arg4) (ix2 q ⟨256 + k.val, by omega⟩) := by
  rw [second_half]
  refine (transpose_apply [1, 0] _ transposes_S256x256_S256x256_1_0 (ix2 k q) (ix2 q k) (fun b => match b with
    | ⟨0, _⟩ => rfl
    | ⟨1, _⟩ => rfl)).trans ?_
  exact slice2_axis1_apply 256 _ slices_S256x512_S256x256_0_256 q k ⟨256 + k.val, by omega⟩ rfl

/-- Entry `(0, q)` of the bias row is entry `q` of the bias. -/
theorem bias_row_at (c : Dev nD) (q : Fin 256) :
    V3 m ρ c main_v15 (ix2 (0 : Fin 1) q) = m ((c.tc : Thread nD τ).loc main_arg5) (ix1 q) := by
  rw [bias_row]
  exact shapeCast_a_1a_apply _ shapeCasts_S256_S1x256 (0 : Fin 1) q

end Cert.KernelIdeal.Stretches

end
-- ==== Proof.KernelValue.lean ====
/-
  The kernel program's result. The result array ends at what region 1's write-backs leave in it: the split form of
  the node update of the node features, the summed messages, the two transposed halves of the weights and the bias
  row, all of them functions of the arguments alone.
-/
import proofs.«113526_j17403207483852_1_alg».proof.Proof.KernelRun
import proofs.«113526_j17403207483852_1_alg».proof.Proof.Update
import proofs.«113526_j17403207483852_1_alg».proof.Proof.Stretches

set_option maxRecDepth 16384

noncomputable section

namespace Cert.KernelIdeal.KernelValue

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The result as one function of the arguments: the split form over the launch node features, the summed
    messages, and the weight halves and bias row the host prepared. -/
abbrev result (c : Dev nD) : S10000x256.Idx → EReal :=
  NodeUpdate.split (m ((c.tc : Thread nD τ).loc main_arg0)) (Stretches.summed m c)
    (V3 m ρ c main_v13) (V3 m ρ c main_v14) (V3 m ρ c main_v15)

/-- The result array at the last segment boundary is that function. -/
theorem result_eq (c : Dev nD) : W4 m ρ c (Proc.devRef .tc main_v16) = result m ρ c := by
  refine ((W4_arr m ρ c 5).trans (Update.output (V3 m ρ) c)).trans ?_
  show NodeUpdate.split (V3 m ρ c main_arg0) (V3 m ρ c main_v10) (V3 m ρ c main_v13) (V3 m ρ c main_v14) (V3 m ρ c main_v15) = _
  rw [Stretches.node_feats, Stretches.summed_messages]

/-- Every weakly fair execution of the kernel program terminates without a fault, the result array at `result` and
    the arguments as launched. -/
theorem run : θ_run defs (onTc (τ := τ) (main (F := Ideal))) ⟨m, fun _ => 0, ρ⟩ (fun r => ∀ c : Dev nD,
      r.2.mem ((c.tc : Thread nD τ).loc main_v16) = result m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_eq m ρ c), (h c).2⟩) (ResultRun.run m ρ)

end Cert.KernelIdeal.KernelValue

end
-- ==== Proof.RefValue.lean ====
/-
  The reference at one output entry. The reference joins each node's features and summed messages into one row of
  512 numbers, multiplies the joined array by the transposed weights, adds the bias broadcast down the rows and
  cuts at zero. Read at `(p, q)` through its stages this is the joined form of the node update: the joined
  array at `(p, k)` is the node's own feature `k` below 256 and its summed message `k - 256` from there on; the
  transposed weights at `(k, q)` are the weights at `(q, k)`; the broadcast bias at `(p, q)` is the bias at `q`.
-/
import proofs.«113526_j17403207483852_1_alg».proof.Proof.Gen.ReferenceIdeal.Read
import proofs.«113526_j17403207483852_1_alg».proof.Proof.NodeUpdate
import Idealize.ShloMosaic.Lib.Pipeline.Value

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx

variable (x0 : (⟨S10000x256, .f32⟩ : BufTy).Contents (Elt Ideal)) (x1 : (⟨S320000x256, .f32⟩ : BufTy).Contents (Elt Ideal))
  (x2 x3 : (⟨S320000, .i32⟩ : BufTy).Contents (Elt Ideal)) (x4 : (⟨S256x512, .f32⟩ : BufTy).Contents (Elt Ideal))
  (x5 : (⟨S256, .f32⟩ : BufTy).Contents (Elt Ideal))

/-- The joined array at `(p, k)`: the node's own features in the first 256 positions, its summed messages after. -/
theorem joined_at (p : Fin 10000) (k : Fin 512) :
    val_main_v11 (F := Ideal) x0 x1 x2 x3 (ix2 p k)
      = NodeUpdate.joinedRow x0 (val_main_v10 (F := Ideal) x0 x1 x2 x3) p k := by
  unfold val_main_v11 NodeUpdate.joinedRow
  by_cases hk : k.val < 256
  · rw [dif_pos hk]
    exact concatenate_pair_apply_left (s₁ := S10000x256) (s₂ := S10000x256) (1 : Fin 2) x0 (val_main_v10 (F := Ideal) x0 x1 x2 x3)
      concatenates_S10000x256_S10000x256_S10000x512_d1 (ix2 p k) rfl
      (ix2 p (⟨k.val, hk⟩ : Fin 256) : S10000x256.Idx) (fun b => match b with
        | ⟨0, _⟩ => rfl
        | ⟨1, _⟩ => rfl)
  · rw [dif_neg hk]
    exact concatenate_pair_apply_right (s₁ := S10000x256) (s₂ := S10000x256) (1 : Fin 2) x0 (val_main_v10 (F := Ideal) x0 x1 x2 x3)
      concatenates_S10000x256_S10000x256_S10000x512_d1 (ix2 p k) rfl rfl
      (ix2 p (⟨k.val - 256, by omega⟩ : Fin 256) : S10000x256.Idx) (fun b hb => match b with
        | ⟨0, _⟩ => rfl
        | ⟨1, _⟩ => absurd rfl hb)
      (by show (k.val - 256) + 256 = k.val; omega)

/-- THE REFERENCE'S RESULT at `(p, q)` is the joined form of the node update of the node features, the summed
    messages (the reference's own scatter-add stage), the weights and the bias. -/
theorem result_at (p : Fin 10000) (q : Fin 256) :
    val_main_v17 (F := Ideal) x0 x1 x2 x3 x4 x5 (ix2 p q)
      = NodeUpdate.joinedAt x0 (val_main_v10 (F := Ideal) x0 x1 x2 x3) x4 x5 p q := by
  have hl : ∀ k : Fin 512, lidx_main_v13 (ix2 p q : S10000x256.Idx) k = ix2 p k := fun k => funext fun a => Fin.ext (by
    match a with
    | ⟨0, _⟩ => rfl
    | ⟨1, _⟩ => rfl)
  have hr : ∀ k : Fin 512, idx_main_v12 (ridx_main_v13 (ix2 p q : S10000x256.Idx) k) = ix2 q k := fun k => funext fun a => Fin.ext (by
    match a with
    | ⟨0, _⟩ => rfl
    | ⟨1, _⟩ => rfl)
  have hb : idx_main_v14 (idx_main_v15 (ix2 p q : S10000x256.Idx)) = ix1 q := funext fun a => Fin.ext (by
    match a with
    | ⟨0, _⟩ => rfl)
  rw [val_main_v17_apply, val_main_v16_apply, val_main_v13_apply, val_main_v15_apply, val_main_v14_apply,
    val_main_call0_v0_apply, val_main_call0_cst_apply, hb]
  simp only [val_main_v12_apply, hl, hr, joined_at]
  unfold NodeUpdate.joinedAt
  show max (_ + _) (Ideal.ofBits .f32 0x00000000#32) = _
  rw [Ideal.ofBits_zero_f32]

end Cert.ReferenceIdeal.RefValue

end
-- ==== Proof.lean ====
/-
  One message-passing layer of a graph network, kernel against reference, over the extended reals.

  Both programs gather each edge's source-node feature row (a negative index counted from the end), multiply it
  entry by entry with the edge's features, and scatter-add the products by destination node into a zero array: the
  summed messages `h`. The kernel program takes the entrywise product in a first region, over 80 blocks of 4000
  edges, where the reference takes it on the host; at the ideal instance both are the same product of the same two
  arrays, so the two programs hand the SAME scatter-add the same array, and `h` is one term on both sides.

  The node update differs in form. The reference joins each node's features `x[p,·]` and `h[p,·]` into a row of 512
  numbers and takes `max (∑ k < 512, (x ‖ h)[p,k] · W[q,k] + b[q]) 0`. The kernel's second region, over 10 blocks of
  1000 nodes, takes `max (∑ k < 256, x[p,k] · W[q,k] + ∑ k < 256, h[p,k] · W[q,256+k] + b[q]) 0`, the host having cut
  the weights into halves and transposed them; its operands' narrowing to bf16 is the identity at the ideal
  instance and each product into a zero accumulator is the plain sum. A sum over 512 positions is the sum over the
  first 256 plus the sum over the last 256: addition on the extended reals is commutative and associative, so
  the two forms agree at every entry whatever the inputs, infinite ones included; the precondition is not used.

  The frames of the two kernel programs are the generated ones; the reference's frame is its generated run with the
  result dropped; the ideal pass rewrote nothing, so `preserves` is `True`.
-/
import proofs.«113526_j17403207483852_1_alg».proof.Defs
import proofs.«113526_j17403207483852_1_alg».proof.Proof.Gen.Kernel
import proofs.«113526_j17403207483852_1_alg».proof.Proof.Gen.Kernel.Skeleton
import proofs.«113526_j17403207483852_1_alg».proof.Proof.Gen.Kernel.Launch
import proofs.«113526_j17403207483852_1_alg».proof.Proof.Gen.Kernel.Points
import proofs.«113526_j17403207483852_1_alg».proof.Proof.Gen.Kernel.Frame
import proofs.«113526_j17403207483852_1_alg».proof.Proof.Gen.KernelIdeal
import proofs.«113526_j17403207483852_1_alg».proof.Proof.Gen.KernelIdeal.Skeleton
import proofs.«113526_j17403207483852_1_alg».proof.Proof.Gen.KernelIdeal.Launch
import proofs.«113526_j17403207483852_1_alg».proof.Proof.Gen.KernelIdeal.Points
import proofs.«113526_j17403207483852_1_alg».proof.Proof.Gen.KernelIdeal.Frame
import proofs.«113526_j17403207483852_1_alg».proof.Proof.Gen.ReferenceIdeal
import proofs.«113526_j17403207483852_1_alg».proof.Proof.Gen.ReferenceIdeal.Run
import proofs.«113526_j17403207483852_1_alg».proof.Proof.Gen.ReferenceIdeal.Read
import proofs.«113526_j17403207483852_1_alg».proof.Proof.Gen.Pre_finite_inputs
import proofs.«113526_j17403207483852_1_alg».proof.Proof.NodeUpdate
import proofs.«113526_j17403207483852_1_alg».proof.Proof.KernelValue
import proofs.«113526_j17403207483852_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

/-- The summed messages are one term in both programs: the same gather, product and scatter-add of the same
    arguments. -/
theorem summed_same (m : (ℓ : Loc Cert.KernelIdeal.nD Cert.KernelIdeal.τ Cert.KernelIdeal.sig) → Buf (Elt Ideal) ℓ)
    (c : Dev Cert.KernelIdeal.nD) :
    Cert.ReferenceIdeal.Read.val_main_v10 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
      = Cert.KernelIdeal.Stretches.summed m c := rfl

/-- The reference's result and the kernel program's are one function of the arguments: at every entry the joined
    form against the split form, equal by splitting the sum over 512 positions at 256. -/
theorem same_function (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.ReferenceIdeal.Read.val_main_v17 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
      = Cert.KernelIdeal.KernelValue.result m ρ c := by
  funext i
  obtain ⟨p, q, rfl⟩ : ∃ (p : Fin 10000) (q : Fin 256), i = ix2 p q := ⟨i 0, i 1, eq_ix2 i⟩
  rw [Cert.ReferenceIdeal.RefValue.result_at, summed_same]
  exact NodeUpdate.joinedAt_eq_splitAt _ _ _ _ _ _ _ (Cert.KernelIdeal.Stretches.first_half_at m ρ c)
    (Cert.KernelIdeal.Stretches.second_half_at m ρ c) (Cert.KernelIdeal.Stretches.bias_row_at m ρ c) p q

theorem frame_kernel : Cert.frame_Kernel := fun m ρ _ => Cert.Kernel.Gen.frame m ρ
theorem frame_kernel_ideal : Cert.frame_KernelIdeal := fun m ρ _ => Cert.KernelIdeal.Gen.frame m ρ
theorem frame_reference_ideal : Cert.frame_ReferenceIdeal := fun m ρ _ =>
  (θ_run Cert.ReferenceIdeal.defs _ _).mono (fun _ h c => (h c).2) (Cert.ReferenceIdeal.Value.run (F := Ideal) m ρ)

/-- The ideal pass rewrote no operation: nothing to preserve. -/
theorem preserves : Cert.preserves_Kernel_KernelIdeal := trivial

/-- From memories agreeing on the arguments both programs run, and their results are one function of the
    arguments. -/
theorem algebraic : Cert.algebraic_KernelIdeal_ReferenceIdeal := by
  intro m ρ m' ρ' _ hagree
  refine ⟨fun c => Cert.KernelIdeal.KernelValue.result m ρ c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, (hagree c).1, (hagree c).2.1, (hagree c).2.2.1, (hagree c).2.2.2.1,
    (hagree c).2.2.2.2.1, (hagree c).2.2.2.2.2]
  exact same_function m ρ c

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
